-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x88 : Shape := ⟨3, ![128, 2048, 88]⟩
abbrev S128x2048 : Shape := ⟨2, ![128, 2048]⟩
abbrev S_ : Shape := ⟨0, ![]⟩

class Facts : Prop where
  bcast_S_S128x2048x88 : S_.BroadcastsInDim S128x2048x88 (![] : Fin 0 → Fin S128x2048x88.rank)
  reducesTo_S128x2048x88_S_d0_1_2 : S128x2048x88.ReducesTo [0, 1, 2] S_
  h_S_ : 0 < S_.numel

variable [Facts]

def fn {F : FTy → Type} [FloatOps F] (main_arg0 : FVec F S128x2048x88 .f32) (main_arg1 : FVec F S128x2048x88 .f32) (main_arg2 : IVec S128x2048 32) : IVec S_ 1 :=
  let main_v0 : FVec F S128x2048x88 .f32 := Host.absf main_arg0
  let main_cst : FVec F S_ .f32 := constant S_ .f32 0x7F800000#32
  let main_v1 : FVec F S128x2048x88 .f32 := broadcastInDim S128x2048x88 ![] bcast_S_S128x2048x88 main_cst
  let main_v2 : IVec S128x2048x88 1 := cmpf .olt main_v0 main_v1
  let main_c : IVec S_ 1 := constantI S_ 1 1#1
  let main_v3 : IVec S_ 1 := (fun x v => Host.reduce IntOp.andi x v reducesTo_S128x2048x88_S_d0_1_2 h_S_) main_v2 main_c
  let main_v4 : FVec F S128x2048x88 .f32 := Host.absf main_arg1
  let main_cst_0 : FVec F S_ .f32 := constant S_ .f32 0x7F800000#32
  let main_v5 : FVec F S128x2048x88 .f32 := broadcastInDim S128x2048x88 ![] bcast_S_S128x2048x88 main_cst_0
  let main_v6 : IVec S128x2048x88 1 := cmpf .olt main_v4 main_v5
  let main_c_1 : IVec S_ 1 := constantI S_ 1 1#1
  let main_v7 : IVec S_ 1 := (fun x v => Host.reduce IntOp.andi x v reducesTo_S128x2048x88_S_d0_1_2 h_S_) main_v6 main_c_1
  let main_v8 : IVec S_ 1 := andi main_v3 main_v7
  main_v8
-- ==== Kernel.lean ====
abbrev S128x2048x88 : Shape := ⟨3, ![128, 2048, 88]⟩
abbrev S128x2048 : Shape := ⟨2, ![128, 2048]⟩
abbrev S128x1 : Shape := ⟨2, ![128, 1]⟩
abbrev S64x256x88 : Shape := ⟨3, ![64, 256, 88]⟩
abbrev S64x1 : Shape := ⟨2, ![64, 1]⟩
abbrev S64x256 : Shape := ⟨2, ![64, 256]⟩
abbrev S64 : Shape := ⟨1, ![64]⟩
abbrev S_ : Shape := ⟨0, ![]⟩
abbrev S128 : Shape := ⟨1, ![128]⟩
abbrev S2048 : Shape := ⟨1, ![2048]⟩
abbrev S1x2048 : Shape := ⟨2, ![1, 2048]⟩

abbrev nBuf : Space → Nat
  | .hbm => 19
  | .vmem => 16
  | .smem => 0
  | _ => 0

abbrev bufTy : (tb : Table) → Fin (tcTables nBuf tb) → BufTy
  | .hbm, ⟨0, _⟩ => ⟨S128x2048x88, .f32⟩
  | .hbm, ⟨1, _⟩ => ⟨S128x2048x88, .f32⟩
  | .hbm, ⟨2, _⟩ => ⟨S128x2048, .i32⟩
  | .hbm, ⟨3, _⟩ => ⟨S128x1, .f32⟩
  | .hbm, ⟨4, _⟩ => ⟨S_, .i32⟩
  | .hbm, ⟨5, _⟩ => ⟨S128, .i32⟩
  | .hbm, ⟨6, _⟩ => ⟨S2048, .i32⟩
  | .hbm, ⟨7, _⟩ => ⟨S1x2048, .i32⟩
  | .hbm, ⟨8, _⟩ => ⟨S128x1, .i32⟩
  | .hbm, ⟨9, _⟩ => ⟨S128x2048, .i32⟩
  | .hbm, ⟨10, _⟩ => ⟨S128x2048, .i32⟩
  | .hbm, ⟨11, _⟩ => ⟨S128x2048, .i1⟩
  | .hbm, ⟨12, _⟩ => ⟨S128x2048, .f32⟩
  | .hbm, ⟨13, _⟩ => ⟨S128x1, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .local _ .vmem, ⟨0, _⟩ => ⟨S64x256x88, .f32⟩
  | .local _ .vmem, ⟨1, _⟩ => ⟨S64x256x88, .f32⟩
  | .local _ .vmem, ⟨2, _⟩ => ⟨S64x256x88, .f32⟩
  | .local _ .vmem, ⟨3, _⟩ => ⟨S64x256x88, .f32⟩
  | .local _ .vmem, ⟨4, _⟩ => ⟨S64x1, .f32⟩
  | .local _ .vmem, ⟨5, _⟩ => ⟨S64x1, .f32⟩
  | .local _ .vmem, ⟨6, _⟩ => ⟨S64x256x88, .f32⟩
  | .local _ .vmem, ⟨7, _⟩ => ⟨S64x256x88, .f32⟩
  | .local _ .vmem, ⟨8, _⟩ => ⟨S64x256x88, .f32⟩
  | .local _ .vmem, ⟨9, _⟩ => ⟨S64x256x88, .f32⟩
  | .local _ .vmem, ⟨10, _⟩ => ⟨S64x1, .f32⟩
  | .local _ .vmem, ⟨11, _⟩ => ⟨S64x1, .f32⟩
  | .local _ .vmem, ⟨12, _⟩ => ⟨S64x256, .f32⟩
  | .local _ .vmem, ⟨13, _⟩ => ⟨S64x256, .f32⟩
  | .local _ .vmem, ⟨14, _⟩ => ⟨S64x1, .f32⟩
  | .local _ .vmem, ⟨15, _⟩ => ⟨S64x1, .f32⟩
  | _, _ => ⟨S128x2048x88, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x256x88 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x256x88 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x256x88 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x256x88 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S64x1_S64x1_0_0 : ∀ a, (![0, 0] : Fin 2 → Nat) a + S64x1.size a ≤ S64x1.size a
  h_S64x1 : 0 < S64x1.numel
  inb_S64x256x88_S64x256x88_0_0_0 : ∀ a, (![0, 0, 0] : Fin 3 → Nat) a + S64x256x88.size a ≤ S64x256x88.size a
  h_S64x256x88 : 0 < S64x256x88.numel
  natLt_1_32 : 1 < 32
  reduces_S64x256x88_S64x256 : S64x256x88.Reduces [2] S64x256
  reduces_S64x256_S64 : S64x256.Reduces [1] S64
  shapeCasts_S64_S64x1 : S64.ShapeCasts S64x1
  shapeCasts_S64x1_S64x1 : S64x1.ShapeCasts S64x1
  reducesTo_S128x2048_S128_d1 : S128x2048.ReducesTo [1] S128
  h_S_ : 0 < S_.numel
  bcast_S2048_S1x2048_1 : S2048.BroadcastsInDim S1x2048 (![1] : Fin 1 → Fin S1x2048.rank)
  bcast_S128_S128x1_0 : S128.BroadcastsInDim S128x1 (![0] : Fin 1 → Fin S128x1.rank)
  bcast_S1x2048_S128x2048_0_1 : S1x2048.BroadcastsInDim S128x2048 (![0, 1] : Fin 2 → Fin S128x2048.rank)
  bcast_S128x1_S128x2048_0_1 : S128x1.BroadcastsInDim S128x2048 (![0, 1] : Fin 2 → Fin S128x2048.rank)
  broadcasts_S64x1_S64x256 : S64x1.Broadcasts S64x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S128x1_S128 : S128x1.ShapeCasts S128
  reducesTo_S128_S_d0 : S128.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x88.size a ≤ S128x2048x88.size a
  hwx0_0 : ∀ i : grid0.Coords, EltTy.bits .f32 = 32 ∨ (Rect.block (s := S128x2048x88) S64x256x88.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256x88.size a ≤ S128x2048x88.size a
  hwx0_1 : ∀ i : grid0.Coords, EltTy.bits .f32 = 32 ∨ (Rect.block (s := S128x2048x88) S64x256x88.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S128x1.size a
  hwx0_2 : ∀ i : grid0.Coords, EltTy.bits .f32 = 32 ∨ (Rect.block (s := S128x1) S64x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x256x88.size a ≤ S128x2048x88.size a
  hwx1_0 : ∀ i : grid1.Coords, EltTy.bits .f32 = 32 ∨ (Rect.block (s := S128x2048x88) S64x256x88.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x256x88.size a ≤ S128x2048x88.size a
  hwx1_1 : ∀ i : grid1.Coords, EltTy.bits .f32 = 32 ∨ (Rect.block (s := S128x2048x88) S64x256x88.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S128x1.size a
  hwx1_2 : ∀ i : grid1.Coords, EltTy.bits .f32 = 32 ∨ (Rect.block (s := S128x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S128x2048.size a
  hwx1_3 : ∀ i : grid1.Coords, EltTy.bits .f32 = 32 ∨ (Rect.block (s := S128x2048) S64x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S128x1.size a
  hwx1_4 : ∀ i : grid1.Coords, EltTy.bits .f32 = 32 ∨ (Rect.block (s := S128x1) S64x1.size (cc1_transform_4 i) (hinb1_4 i)).WholeWords (EltTy.packing .f32)

variable [Facts₀]

abbrev win0_0 : Pipeline.Window sig grid0 :=
  Pipeline.Window.ofSpec (Memref.whole main_arg0) S64x256x88.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256x88.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S64x256x88.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x256x88.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S64x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S64x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S128x2048x88 : Shape := ⟨3, ![128, 2048, 88]⟩
abbrev S128x2048 : Shape := ⟨2, ![128, 2048]⟩
abbrev S_ : Shape := ⟨0, ![]⟩
abbrev S128 : Shape := ⟨1, ![128]⟩
abbrev S2048 : Shape := ⟨1, ![2048]⟩
abbrev S1x2048 : Shape := ⟨2, ![1, 2048]⟩
abbrev S128x1 : Shape := ⟨2, ![128, 1]⟩

abbrev nBuf : Space → Nat
  | .hbm => 53
  | .vmem => 0
  | .smem => 0
  | _ => 0

abbrev bufTy : (tb : Table) → Fin (tcTables nBuf tb) → BufTy
  | .hbm, ⟨0, _⟩ => ⟨S128x2048x88, .f32⟩
  | .hbm, ⟨1, _⟩ => ⟨S128x2048x88, .f32⟩
  | .hbm, ⟨2, _⟩ => ⟨S128x2048, .i32⟩
  | .hbm, ⟨3, _⟩ => ⟨S128x2048x88, .f32⟩
  | .hbm, ⟨4, _⟩ => ⟨S128x2048x88, .f32⟩
  | .hbm, ⟨5, _⟩ => ⟨S_, .f32⟩
  | .hbm, ⟨6, _⟩ => ⟨S128x2048x88, .f32⟩
  | .hbm, ⟨7, _⟩ => ⟨S128x2048x88, .f32⟩
  | .hbm, ⟨8, _⟩ => ⟨S_, .f32⟩
  | .hbm, ⟨9, _⟩ => ⟨S128x2048x88, .f32⟩
  | .hbm, ⟨10, _⟩ => ⟨S128x2048x88, .f32⟩
  | .hbm, ⟨11, _⟩ => ⟨S_, .f32⟩
  | .hbm, ⟨12, _⟩ => ⟨S128x2048x88, .f32⟩
  | .hbm, ⟨13, _⟩ => ⟨S128x2048x88, .i1⟩
  | .hbm, ⟨14, _⟩ => ⟨S128x2048x88, .f32⟩
  | .hbm, ⟨15, _⟩ => ⟨S128x2048x88, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128x2048x88, .f32⟩
  | .hbm, ⟨20, _⟩ => ⟨S128x2048x88, .f32⟩
  | .hbm, ⟨21, _⟩ => ⟨S128x2048x88, .f32⟩
  | .hbm, ⟨22, _⟩ => ⟨S_, .f32⟩
  | .hbm, ⟨23, _⟩ => ⟨S128x2048, .f32⟩
  | .hbm, ⟨24, _⟩ => ⟨S_, .f32⟩
  | .hbm, ⟨25, _⟩ => ⟨S128x2048x88, .f32⟩
  | .hbm, ⟨26, _⟩ => ⟨S128x2048x88, .f32⟩
  | .hbm, ⟨27, _⟩ => ⟨S128x2048x88, .f32⟩
  | .hbm, ⟨28, _⟩ => ⟨S_, .f32⟩
  | .hbm, ⟨29, _⟩ => ⟨S128x2048, .f32⟩
  | .hbm, ⟨30, _⟩ => ⟨S_, .i32⟩
  | .hbm, ⟨31, _⟩ => ⟨S128, .i32⟩
  | .hbm, ⟨32, _⟩ => ⟨S2048, .i32⟩
  | .hbm, ⟨33, _⟩ => ⟨S1x2048, .i32⟩
  | .hbm, ⟨34, _⟩ => ⟨S128x1, .i32⟩
  | .hbm, ⟨35, _⟩ => ⟨S128x2048, .i32⟩
  | .hbm, ⟨36, _⟩ => ⟨S128x2048, .i32⟩
  | .hbm, ⟨37, _⟩ => ⟨S128x2048, .i1⟩
  | .hbm, ⟨38, _⟩ => ⟨S128x2048, .f32⟩
  | .hbm, ⟨39, _⟩ => ⟨S128x1, .f32⟩
  | .hbm, ⟨40, _⟩ => ⟨S128x1, .f32⟩
  | .hbm, ⟨41, _⟩ => ⟨S128x2048, .f32⟩
  | .hbm, ⟨42, _⟩ => ⟨S128x2048, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S128x2048, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S_, .f32⟩
  | _, _ => ⟨S128x2048x88, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S_S128x2048x88 : S_.BroadcastsInDim S128x2048x88 (![] : Fin 0 → Fin S128x2048x88.rank)
  reducesTo_S128x2048x88_S128_d1_2 : S128x2048x88.ReducesTo [1, 2] S128
  h_S_ : 0 < S_.numel
  reducesTo_S128x2048x88_S128x2048_d2 : S128x2048x88.ReducesTo [2] S128x2048
  reducesTo_S128x2048_S128_d1 : S128x2048.ReducesTo [1] S128
  bcast_S2048_S1x2048_1 : S2048.BroadcastsInDim S1x2048 (![1] : Fin 1 → Fin S1x2048.rank)
  bcast_S128_S128x1_0 : S128.BroadcastsInDim S128x1 (![0] : Fin 1 → Fin S128x1.rank)
  bcast_S1x2048_S128x2048_0_1 : S1x2048.BroadcastsInDim S128x2048 (![0, 1] : Fin 2 → Fin S128x2048.rank)
  bcast_S128x1_S128x2048_0_1 : S128x1.BroadcastsInDim S128x2048 (![0, 1] : Fin 2 → Fin S128x2048.rank)
  reducesTo_S128_S_d0 : S128.ReducesTo [0] S_

variable [Facts₀]

class Facts : Prop extends Facts₀ where

variable [Facts]
-- ==== Proof.HostSide.lean ====
/-
  The host stretches of the kernel program, read as values. Between the two kernel regions the host counts each
  sequence's valid timesteps (the integer sum of its mask row) and builds the weights (one where the timestep is below
  the count, else zero); after the second region it divides each sequence's sum of ratios by its count and sums over the
  sequences. Here: what each buffer the second region is entered with holds, and the program's result as those
  operations of the second region's result column.
-/
import proofs.«177394_j77257871721096_1_alg».proof.Proof.Gen.KernelIdeal.Frame
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.HostSide
open Cert.KernelIdeal Cert.KernelIdeal.Gen

variable {F : FTy → Type} [FloatOps F]

/-- Each sequence's number of valid timesteps: the integer sum of its mask row. -/
abbrev steps (x2 : (⟨S128x2048, .i32⟩ : BufTy).Contents (Elt F)) : (⟨S128, .i32⟩ : BufTy).Contents (Elt F) :=
  Host.reduce IntOp.addi x2 (constantI S_ 32 0#32) reducesTo_S128x2048_S128_d1 h_S_

/-- The weights: at (n, t) one where `t` is below sequence `n`'s count, else zero. -/
abbrev weights (x2 : (⟨S128x2048, .i32⟩ : BufTy).Contents (Elt F)) : (⟨S128x2048, .f32⟩ : BufTy).Contents (Elt F) :=
  uitofp .f32 (cmpi .slt
    (broadcastInDim S128x2048 ![0, 1] bcast_S1x2048_S128x2048_0_1 (broadcastInDim S1x2048 ![1] bcast_S2048_S1x2048_1 (iotaInDim S2048 32 0)))
    (broadcastInDim S128x2048 ![0, 1] bcast_S128x1_S128x2048_0_1 (broadcastInDim S128x1 ![0] bcast_S128_S128x1_0 (steps (F := F) x2))))

variable (m : (ℓ : Loc nD τ sig) → Buf (Elt F) ℓ) (ρ : Dev nD → PrngReg)

/-- The first region does not touch the mask. -/
theorem mask_kept (c : Dev nD) : W1 m ρ c (Proc.devRef .tc main_arg2) = m ((c : Thread nD τ).loc main_arg2) :=
  W1_of_ne m ρ c main_arg2 (by decide)

/-- The second region is entered with the logits as launched: no host operation writes them and the first region only reads them. -/
theorem logits_eq (c : Dev nD) : V2 m ρ c main_arg0 = m ((c : Thread nD τ).loc main_arg0) := by
  show StableHlo.after hostOps1 (W1 m ρ c) (Proc.devRef .tc main_arg0) = _
  after_results
  exact (W1_arr m ρ c 0).trans (((dat0 (V0 m ρ) c).arrAt_in 0 rfl _).trans (A_eq0 (V0 m ρ) c 0))

/-- … and with the targets as launched. -/
theorem targets_eq (c : Dev nD) : V2 m ρ c main_arg1 = m ((c : Thread nD τ).loc main_arg1) := by
  show StableHlo.after hostOps1 (W1 m ρ c) (Proc.devRef .tc main_arg1) = _
  after_results
  exact (W1_arr m ρ c 1).trans (((dat0 (V0 m ρ) c).arrAt_in 1 rfl _).trans (A_eq0 (V0 m ρ) c 1))

/-- … with the true-positive column at what the first region's write-backs left. -/
theorem column_eq (c : Dev nD) : V2 m ρ c main_v0 = (dat0 (V0 m ρ) c).arrAt 2 cfg0.N := by
  show StableHlo.after hostOps1 (W1 m ρ c) (Proc.devRef .tc main_v0) = _
  after_results
  exact W1_arr m ρ c 2

/-- … and with the weights the host built from the mask. -/
theorem weights_eq (c : Dev nD) : V2 m ρ c main_v8 = weights (m ((c : Thread nD τ).loc main_arg2)) := by
  show StableHlo.after hostOps1 (W1 m ρ c) (Proc.devRef .tc main_v8) = _
  after_results
  rw [mask_kept]

/-- The counts are still there after the second region. -/
theorem steps_eq (c : Dev nD) : W3 m ρ c (Proc.devRef .tc main_v1) = steps (m ((c : Thread nD τ).loc main_arg2)) := by
  rw [W3_of_ne m ρ c main_v1 (by decide)]
  show StableHlo.after hostOps1 (W1 m ρ c) (Proc.devRef .tc main_v1) = _
  after_results
  rw [mask_kept]

/-- The program's result: the second region's column [128, 1] read as a vector [128], divided entrywise by the counts,
    summed over the sequences. -/
theorem result_eq (c : Dev nD) :
    W4 m ρ c (Proc.devRef .tc main_v13)
      = Host.reduceAdd (Host.divf (shapeCast S128 ((dat1 (V2 m ρ) c).arrAt 4 cfg1.N) shapeCasts_S128x1_S128)
          (sitofp .f32 (steps (m ((c : Thread nD τ).loc main_arg2))))) (constant S_ .f32 0x00000000#32) reducesTo_S128_S_d0 h_S_ := by
  show StableHlo.after hostOps2 (W3 m ρ c) (Proc.devRef .tc main_v13) = _
  after_results
  rw [steps_eq, show W3 m ρ c (Proc.devRef .tc main_v9) = (dat1 (V2 m ρ) c).arrAt 4 cfg1.N from W3_arr m ρ c 4]
  rfl

end Cert.KernelIdeal.HostSide
end
-- ==== Proof.Spec.lean ====
/-
  The mathematics both programs compute, on the extended reals, written once over whole arrays.

  For logits `X` and targets `Y` of shape [128, 2048, 88] and a weight array `W` of shape [128, 2048]:
  the thresholded prediction `p = [X > 0]` (one where the logit is positive, else zero); per sequence `n` the
  true positives `tp n = ∑ₜ ∑_d p · Y`; per sequence and timestep the false positives `fp n t = ∑_d p · (1 - Y)`
  and false negatives `fn n t = ∑_d (1 - p) · Y`; the weighted sum of ratios
  `acc n = ∑ₜ tp n / ((tp n + fp n t) + fn n t) · W n t`.
  Also here: a sum over 2048 timesteps is the sum over 8 consecutive runs of 256 (how a tiled evaluation visits them).
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- logits / targets: [128, 2048, 88] -/
abbrev T3 : Shape := ⟨3, ![128, 2048, 88]⟩
/-- per sequence and timestep: [128, 2048] -/
abbrev T2 : Shape := ⟨2, ![128, 2048]⟩

/-- The float one, as the word both programs print. -/
abbrev one : EReal := Ideal.ofBits .f32 0x3F800000#32

/-- The thresholded prediction of one logit: the comparison `x > 0` as an `i1`, widened, read as a number. -/
def pred (x : EReal) : EReal :=
  FloatOps.sitofp (F := Ideal) .f32 ((FloatOps.cmpf (F := Ideal) (φ := .f32) .ogt x (Ideal.ofBits .f32 0x00000000#32)).setWidth 32)

/-- Timestep `256·k + s` of run `k`. -/
abbrev tcat (k : Fin 8) (s : Fin 256) : Fin 2048 := ⟨256 * k.val + s.val, by have := k.isLt; have := s.isLt; omega⟩

variable (X Y : T3.Idx → EReal)

/-- True positives of sequence `n`: over every timestep and feature. -/
def tp (n : Fin 128) : EReal := ∑ t : Fin 2048, ∑ d : Fin 88, pred (X (ix3 n t d)) * Y (ix3 n t d)
/-- False positives of sequence `n` at timestep `t`. -/
def fp (n : Fin 128) (t : Fin 2048) : EReal := ∑ d : Fin 88, pred (X (ix3 n t d)) * (one - Y (ix3 n t d))
/-- False negatives of sequence `n` at timestep `t`. -/
def fn (n : Fin 128) (t : Fin 2048) : EReal := ∑ d : Fin 88, (one - pred (X (ix3 n t d))) * Y (ix3 n t d)
/-- The weighted sum of ratios of sequence `n`, for a given true-positive count `τ n` and weights `W`. -/
def acc (τ : Fin 128 → EReal) (W : T2.Idx → EReal) (n : Fin 128) : EReal :=
  ∑ t : Fin 2048, Ideal.div (τ n) ((τ n + fp X Y n t) + fn X Y n t) * W (ix2 n t)

/-- A sum over the 2048 timesteps is the sum over the 8 runs of 256 consecutive ones, in any commutative monoid. -/
theorem sum_runs {M : Type*} [AddCommMonoid M] (f : Fin 2048 → M) :
    ∑ k : Fin 8, ∑ s : Fin 256, f (tcat k s) = ∑ t : Fin 2048, f t := by
  rw [← Fintype.sum_prod_type' (fun (k : Fin 8) (s : Fin 256) => f (tcat k s))]
  refine Fintype.sum_equiv (finProdFinEquiv (m := 8) (n := 256)) _ _ fun p => ?_
  congr 1
  apply Fin.ext
  show 256 * p.1.val + p.2.val = p.2.val + 256 * p.1.val
  omega

end Cert.Spec

end
-- ==== Proof.TruePos.lean ====
import proofs.«177394_j77257871721096_1_alg».proof.Proof.Spec
import proofs.«177394_j77257871721096_1_alg».proof.Proof.Gen.KernelIdeal.Frame
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

/-! Region 0 (the true-positive kernel): what its result array [128, 1] holds after the last grid point. -/
namespace Cert.KernelIdeal.TruePos
open Cert.KernelIdeal Cert.KernelIdeal.Gen

/-! ## What each case of the body leaves in the result block -/

section Cases
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- An accumulating point: the block holding `xo` ends at the update of `xo` by the two input blocks. -/
theorem out_B (c : Dev nD) (i : grid0.Coords) (a2 : Memref sig .tc .vmem S64x256x88 .f32) (h2 : a2.IsWhole)
    (a3 : Memref sig .tc .vmem S64x256x88 .f32) (h3 : a3.IsWhole) (a4 : Memref sig .tc .vmem S64x1 .f32) (h4 : a4.IsWhole)
    (hc : ¬cond0_0 i) (x0 x1 : Vec F S64x256x88 .f32) (xo : Vec F S64x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz2]
  simp only [View.readAt_eq_ld, h2.read_unread, h3.read_unread, h4.read_unread,
    View.ld_unit_zero (S := S64x256x88) hz3, View.ld_unit_zero (S := S64x1) hz2]

/-- A resetting point: the block is zeroed, read back, and ends at the update of the zero block. -/
theorem out_A (c : Dev nD) (i : grid0.Coords) (a2 : Memref sig .tc .vmem S64x256x88 .f32) (h2 : a2.IsWhole)
    (a3 : Memref sig .tc .vmem S64x256x88 .f32) (h3 : a3.IsWhole) (a4 : Memref sig .tc .vmem S64x1 .f32) (h4 : a4.IsWhole)
    (hc : cond0_0 i) (x0 x1 : Vec F S64x256x88 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S64x1) hz2, View.readCov_unit_zero (S := S64x1) _ hz2]
  simp only [View.readAt_eq_ld, h2.read_unread, h3.read_unread,
    View.ld_unit_zero (S := S64x256x88) hz3]
end Cases

/-! ## The update at an entry, over the extended reals -/

/-- The source index over row `r` with in-block timestep `s` put back. -/
theorem lift_step (r : Fin 64) (s : Fin 256) : reduces_S64x256_S64.lift (ix1 r) s = ix2 r s := by
  funext a; match a with | ⟨0, _⟩ => rfl | ⟨1, _⟩ => rfl
/-- The source index over (row, timestep) with feature `d` put back. -/
theorem lift_feat (r : Fin 64) (s : Fin 256) (d : Fin 88) : reduces_S64x256x88_S64x256.lift (ix2 r s) d = ix3 r s d := by
  funext a; match a with | ⟨0, _⟩ => rfl | ⟨1, _⟩ => rfl | ⟨2, _⟩ => rfl

/-- The zero block at an entry. -/
theorem pay1_apply (j : S64x1.Idx) : (k0_pay1 (F := Ideal) : S64x1.Idx → EReal) j = 0 := Ideal.ofBits_zero_f32

/-- The update at row `r`: what the block held there plus the sum, over the block's timesteps and features, of prediction times target. -/
theorem pay2_apply (x y : Vec Ideal S64x256x88 .f32) (xo : Vec Ideal S64x1 .f32) (r : Fin 64) (z : Fin 1) :
    (k0_pay2 (F := Ideal) x y xo : S64x1.Idx → EReal) (ix2 r z)
      = xo (ix2 r z) + ∑ s : Fin 256, ∑ d : Fin 88, Cert.Spec.pred (x (ix3 r s d)) * y (ix3 r s d) := by
  unfold k0_pay2
  refine (addf_apply _ _ _).trans ?_
  refine congrArg₂ (· + ·) (congrFun (shapeCast_self xo _) _) ?_
  refine (shapeCast_apply _ _ (ix2 r z) (ix1 r) ?_).trans ?_
  · rw [Shape.rowMajor_val_one, Shape.rowMajor_val_two]
    have hz : z.val = 0 := by have := z.isLt; omega
    show r.val = r.val * 1 + z.val
    omega
  refine (Ideal.multiReduction_add_single _ _ _ _ _ (ix1 r)).trans ?_
  refine Finset.sum_congr rfl fun s _ => ?_
  refine (congrArg _ (lift_step r s)).trans ?_
  refine (Ideal.multiReduction_add_single _ _ _ _ _ (ix2 r s)).trans ?_
  refine Finset.sum_congr rfl fun d _ => ?_
  refine (congrArg _ (lift_feat r s d)).trans ?_
  rfl

/-! ## The arrays the region reads, and its blocks at a point -/

variable (V : (c : Dev nD) → (b : Ref sig .tc) → Buf (Elt Ideal) ((c : Thread nD τ).loc b))

/-- The logits and the targets as the region finds them. -/
abbrev X (c : Dev nD) : Cert.Spec.T3.Idx → EReal := V c main_arg0
abbrev Y (c : Dev nD) : Cert.Spec.T3.Idx → EReal := V c main_arg1

/-- The logits' and the targets' block at point `t`. -/
abbrev xblk (c : Dev nD) (t : Fin cfg0.N) : Vec Ideal S64x256x88 .f32 := iblk0 V c 0 t
abbrev yblk (c : Dev nD) (t : Fin cfg0.N) : Vec Ideal S64x256x88 .f32 := iblk0 V c 1 t

/-- Point `t = 8·q + j` reads row block `q` and timestep block `j` of both inputs, whole on the feature axis, and
    writes row block `q` of the result. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = t.val / 8 ∧ win0_2.index t (1 : Fin 2) = 0 :=
  (by decide +kernel : ∀ t : Fin grid0.N, _)

/-- The logits' block at point `t`, entry (r, s, d): the array at row `64·(t / 8) + r`, timestep `256·(t % 8) + s`, feature `d`. -/
theorem xblk_apply (c : Dev nD) (t : Fin cfg0.N) (r : Fin 64) (s : Fin 256) (d : Fin 88) (i : Cert.Spec.T3.Idx)
    (h0 : (i 0).val = 64 * (t.val / 8) + r.val) (h1 : (i 1).val = 256 * (t.val % 8) + s.val) (h2 : (i 2).val = d.val) :
    xblk V c t (ix3 r s d) = X V c i := by
  obtain ⟨e0, e1, e2, -, -, -, -, -⟩ := idx_facts t
  show V c main_arg0 (((cfg0.win 0).blk t).view.emb (ix3 r s d)) = V c main_arg0 i
  refine congrArg _ (funext fun a => Fin.ext ?_)
  match a with
  | ⟨0, _⟩ => show win0_0.index t (0 : Fin 3) * 64 + 1 * r.val = (i 0).val; omega
  | ⟨1, _⟩ => show win0_0.index t (1 : Fin 3) * 256 + 1 * s.val = (i 1).val; omega
  | ⟨2, _⟩ => show win0_0.index t (2 : Fin 3) * 88 + 1 * d.val = (i 2).val; omega

/-- The targets' block likewise. -/
theorem yblk_apply (c : Dev nD) (t : Fin cfg0.N) (r : Fin 64) (s : Fin 256) (d : Fin 88) (i : Cert.Spec.T3.Idx)
    (h0 : (i 0).val = 64 * (t.val / 8) + r.val) (h1 : (i 1).val = 256 * (t.val % 8) + s.val) (h2 : (i 2).val = d.val) :
    yblk V c t (ix3 r s d) = Y V c i := by
  obtain ⟨-, -, -, e0, e1, e2, -, -⟩ := idx_facts t
  show V c main_arg1 (((cfg0.win 1).blk t).view.emb (ix3 r s d)) = V c main_arg1 i
  refine congrArg _ (funext fun a => Fin.ext ?_)
  match a with
  | ⟨0, _⟩ => show win0_1.index t (0 : Fin 3) * 64 + 1 * r.val = (i 0).val; omega
  | ⟨1, _⟩ => show win0_1.index t (1 : Fin 3) * 256 + 1 * s.val = (i 1).val; omega
  | ⟨2, _⟩ => show win0_1.index t (2 : Fin 3) * 88 + 1 * d.val = (i 2).val; omega

/-! ## The running contents of the result block: a sum over the points of the run so far -/

/-- What point `n` adds to row `r` of its result block: prediction times target over its block's timesteps and
    features (nothing past the grid). -/
def addend (c : Dev nD) (n : ℕ) (r : Fin 64) : EReal :=
  if h : n < cfg0.N then
    ∑ s : Fin 256, ∑ d : Fin 88, Cert.Spec.pred (xblk V c ⟨n, h⟩ (ix3 r s d)) * yblk V c ⟨n, h⟩ (ix3 r s d)
  else 0

theorem addend_of_lt (c : Dev nD) (n : ℕ) (h : n < cfg0.N) (r : Fin 64) :
    addend V c n r = ∑ s : Fin 256, ∑ d : Fin 88, Cert.Spec.pred (xblk V c ⟨n, h⟩ (ix3 r s d)) * yblk V c ⟨n, h⟩ (ix3 r s d) :=
  dif_pos h

/-- After point `8·q + j` of run `q` the result block holds, at row `r`, the sum of what the run's points so far added:
    the first point resets to zero and adds, each later one adds to what the point before left. -/
theorem run_sum (c : Dev nD) (q : ℕ) (r : Fin 64) (z : Fin 1) : ∀ (j : ℕ) (hj : j < 8) (h : 8 * q + j < cfg0.N),
    (outsAt0 V c (8 * q + j) h : S64x1.Idx → EReal) (ix2 r z) = ∑ k ∈ Finset.range (j + 1), addend V c (8 * q + k) r
  | 0, _, h => by
    have hA : (⟨8 * q + 0, h⟩ : Fin cfg0.N).val % 8 = 0 := by dsimp only; omega
    rw [Finset.sum_range_one, addend_of_lt V c (8 * q + 0) h r]
    refine (congrFun ((outsAt0_A V c ⟨8 * q + 0, h⟩ hA).trans
      (out_A (F := Ideal) c (grid0.coords ⟨8 * q + 0, h⟩) (ms0_0 ⟨8 * q + 0, h⟩) (hs0_0 ⟨8 * q + 0, h⟩) (ms0_1 ⟨8 * q + 0, h⟩) (hs0_1 ⟨8 * q + 0, h⟩)
        (ms0_2 ⟨8 * q + 0, h⟩) (hs0_2 ⟨8 * q + 0, h⟩) ((hcond0_0 ⟨8 * q + 0, h⟩).mpr hA) (xblk V c ⟨8 * q + 0, h⟩) (yblk V c ⟨8 * q + 0, h⟩))) (ix2 r z)).trans ?_
    rw [pay2_apply, pay1_apply, zero_add]
  | j + 1, hj, h => by
    have hB : ¬(⟨8 * q + (j + 1), h⟩ : Fin cfg0.N).val % 8 = 0 := by dsimp only; omega
    rw [Finset.sum_range_succ, ← run_sum c q r z j (Nat.lt_of_succ_lt hj) (Nat.lt_of_succ_lt h), addend_of_lt V c (8 * q + (j + 1)) h r]
    refine (congrFun ((outsAt0_B V c ⟨8 * q + (j + 1), h⟩ hB).trans
      (out_B (F := Ideal) c (grid0.coords ⟨8 * q + (j + 1), h⟩) (ms0_0 ⟨8 * q + (j + 1), h⟩) (hs0_0 ⟨8 * q + (j + 1), h⟩) (ms0_1 ⟨8 * q + (j + 1), h⟩) (hs0_1 ⟨8 * q + (j + 1), h⟩)
        (ms0_2 ⟨8 * q + (j + 1), h⟩) (hs0_2 ⟨8 * q + (j + 1), h⟩) (fun hh => hB ((hcond0_0 ⟨8 * q + (j + 1), h⟩).mp hh)) (xblk V c ⟨8 * q + (j + 1), h⟩) (yblk V c ⟨8 * q + (j + 1), h⟩)
        (outsAt0 V c (8 * q + j) (Nat.lt_of_succ_lt h)))) (ix2 r z)).trans ?_
    rw [pay2_apply]

/-! ## From the last point of a run to the result array -/

/-- The point that closes run `t / 8` leaves, at row `r` of its block, the true positives of sequence `64·(t / 8) + r`:
    the run's eight addends are that sequence's sums over the eight consecutive stretches of 256 timesteps. -/
theorem block_value (c : Dev nD) (t : Fin cfg0.N) (ht : t.val % 8 = 7) (r : Fin 64) (z : Fin 1) (n : Fin 128)
    (hn : n.val = 64 * (t.val / 8) + r.val) :
    (outsAt0 V c t.val t.isLt : S64x1.Idx → EReal) (ix2 r z) = Cert.Spec.tp (X V c) (Y V c) n := by
  have hN : cfg0.N = 16 := N_0
  have tlt : t.val < cfg0.N := t.isLt
  have e : t.val = 8 * (t.val / 8) + 7 := by omega
  have hlt : 8 * (t.val / 8) + 7 < cfg0.N := by omega
  have same : ∀ (u : ℕ) (hu : u < cfg0.N), u = t.val → outsAt0 V c u hu = outsAt0 V c t.val t.isLt :=
    fun u hu e => by subst e; rfl
  rw [← same _ hlt e.symm, run_sum V c (t.val / 8) r z 7 (by omega) hlt, Finset.sum_range]
  unfold Cert.Spec.tp
  rw [← Cert.Spec.sum_runs (fun t' : Fin 2048 => ∑ d : Fin 88, Cert.Spec.pred (X V c (ix3 n t' d)) * Y V c (ix3 n t' d))]
  refine Finset.sum_congr rfl fun k _ => ?_
  have hk : k.val < 8 := k.isLt
  have hkN : 8 * (t.val / 8) + k.val < cfg0.N := by omega
  rw [addend_of_lt V c _ hkN r]
  refine Finset.sum_congr rfl fun s _ => Finset.sum_congr rfl fun d _ => ?_
  have h0 : ((ix3 n (Cert.Spec.tcat k s) d : Cert.Spec.T3.Idx) 0).val
      = 64 * ((⟨8 * (t.val / 8) + k.val, hkN⟩ : Fin cfg0.N).val / 8) + r.val := by
    show n.val = 64 * ((8 * (t.val / 8) + k.val) / 8) + r.val
    omega
  have h1 : ((ix3 n (Cert.Spec.tcat k s) d : Cert.Spec.T3.Idx) 1).val
      = 256 * ((⟨8 * (t.val / 8) + k.val, hkN⟩ : Fin cfg0.N).val % 8) + s.val := by
    show 256 * k.val + s.val = 256 * ((8 * (t.val / 8) + k.val) % 8) + s.val
    omega
  rw [xblk_apply V c ⟨8 * (t.val / 8) + k.val, hkN⟩ r s d (ix3 n (Cert.Spec.tcat k s) d) h0 h1 rfl,
    yblk_apply V c ⟨8 * (t.val / 8) + k.val, hkN⟩ r s d (ix3 n (Cert.Spec.tcat k s) d) h0 h1 rfl]

/-- What the result array ends holding: at row `i 0`, that sequence's true positives. -/
def G (c : Dev nD) : S128x1.Idx → EReal := fun i => Cert.Spec.tp (X V c) (Y V c) (i 0)

/-- The closing point's block at any of its entries, against the array entry it is written to. -/
theorem flushed_at (c : Dev nD) (t : Fin cfg0.N) (ht : t.val % 8 = 7) (y : S64x1.Idx) (i : S128x1.Idx)
    (hi : (i 0).val = 64 * (t.val / 8) + (y 0).val) :
    (outsAt0 V c t.val t.isLt : S64x1.Idx → EReal) y = G V c i := by
  rw [eq_ix2 y]
  exact block_value V c t ht (y 0) (y 1) (i 0) hi

/-- Each write-back writes its block of that array. -/
theorem flushed_eq (c : Dev nD) (t : Fin cfg0.N) (hf : (cfg0.win 2).flush t = true) :
    (dat0 V c).flushed 2 t = ((cfg0.win 2).blk t).view.read (Elt Ideal) (G V c) := by
  have ht : t.val % 8 = 7 := (flush0_2 t).mp hf
  obtain ⟨-, -, -, -, -, -, e0, -⟩ := idx_facts t
  show (cfg0.win 2).cut (grid0.coords t) ((dat0 V c).after 2 t) = _
  rw [after0_2]
  funext y
  show (outsAt0 V c t.val t.isLt : S64x1.Idx → EReal) y = G V c (((cfg0.win 2).blk t).view.emb y)
  refine flushed_at V c t ht y _ ?_
  show win0_2.index t (0 : Fin 2) * 64 + 1 * (y 0).val = 64 * (t.val / 8) + (y 0).val
  omega

/-- Row `i 0` of the array lies in the block the point closing run `(i 0) / 64` writes back. -/
theorem covered (i : S128x1.Idx) :
    ∃ t : Fin cfg0.N, (cfg0.win 2).flush t = true ∧ i ∈ ((cfg0.win 2).blk t).view.set := by
  have h0 : (i 0).val < 128 := (i 0).isLt
  have h1 : (i 1).val < 1 := (i 1).isLt
  have hN : cfg0.N = 16 := N_0
  obtain ⟨t, et⟩ : ∃ t : Fin cfg0.N, t.val = 8 * ((i 0).val / 64) + 7 := ⟨⟨8 * ((i 0).val / 64) + 7, by omega⟩, rfl⟩
  obtain ⟨-, -, -, -, -, -, e0, e1⟩ := idx_facts t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 64 ≤ (i 0).val ∧ (i 0).val < win0_2.index t (0 : Fin 2) * 64 + 64
    omega
  | ⟨1, _⟩ =>
    show win0_2.index t (1 : Fin 2) * 1 ≤ (i 1).val ∧ (i 1).val < win0_2.index t (1 : Fin 2) * 1 + 1
    omega

/-- So the result array ends holding every sequence's true positives. -/
theorem final (c : Dev nD) : (dat0 V c).arrAt 2 cfg0.N = G V c :=
  (dat0 V c).arrAt_eq_of_cover 2 (G V c) (flushed_eq V c) covered

/-- Region 0's result array, entry (n, 0): the true positives of sequence n of the arrays the region was entered with. -/
theorem value (c : Dev nD) (n : Fin 128) :
    ((dat0 (F := Ideal) V c).arrAt 2 cfg0.N : S128x1.Idx → EReal) (ix2 n 0)
      = Cert.Spec.tp (V c main_arg0) (V c main_arg1) n :=
  congrFun (final V c) (ix2 n 0)

end Cert.KernelIdeal.TruePos
end
-- ==== Proof.RatioSum.lean ====
import proofs.«177394_j77257871721096_1_alg».proof.Proof.Spec
import proofs.«177394_j77257871721096_1_alg».proof.Proof.Gen.KernelIdeal.Frame
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

/-! Region 1 (the ratio kernel): what its result array [128, 1] holds after the last grid point. -/
namespace Cert.KernelIdeal.RatioSum
open Cert.KernelIdeal Cert.KernelIdeal.Gen

variable (V : (c : Dev nD) → (b : Ref sig .tc) → Buf (Elt Ideal) ((c : Thread nD τ).loc b))

section Cases
variable {F : FTy → Type} [FloatOps F]

/-- The offsets (0, 0) of a whole-block access are the zero offsets. -/
theorem hz2 : (![0, 0] : Fin 2 → Nat) = fun _ => 0 := funext fun a => by fin_cases a <;> rfl
/-- The offsets (0, 0, 0) of a whole-block access are the zero offsets. -/
theorem hz3 : (![0, 0, 0] : Fin 3 → Nat) = fun _ => 0 := funext fun a => by fin_cases a <;> rfl

/-- A point that continues a run of timestep blocks: the body's one covering store leaves its payload over the four loaded
    blocks and the running block. -/
theorem out_B (c : Dev nD) (i : grid1.Coords) (a2 : Memref sig .tc .vmem S64x256x88 .f32) (h2 : a2.IsWhole)
    (a3 : Memref sig .tc .vmem S64x256x88 .f32) (h3 : a3.IsWhole) (a4 : Memref sig .tc .vmem S64x1 .f32) (h4 : a4.IsWhole)
    (a5 : Memref sig .tc .vmem S64x256 .f32) (h5 : a5.IsWhole) (a6 : Memref sig .tc .vmem S64x1 .f32) (h6 : a6.IsWhole)
    (hc : ¬cond1_0 i) (x y : Vec F S64x256x88 .f32) (tp : Vec F S64x1 .f32) (w : Vec F S64x256 .f32) (xo : Vec F S64x1 .f32) :
    out1_B_4 c i a2 h2 a3 h3 a4 h4 a5 h5 a6 h6 hc x y tp w xo = k1_pay2 x y tp w xo := by
  unfold out1_B_4
  rw [View.read_writes_eq_canon _ _ _ (cover1_B_4 c i a2 h2 a3 h3 a4 h4 a5 h5 a6 h6 hc x y tp w xo)]
  unfold kernelRun1_B
  dsimp only
  rw [View.canon_unit_zero hz2]
  simp only [View.readAt_eq_ld, h2.read_unread, h3.read_unread, h4.read_unread, h5.read_unread, h6.read_unread,
    View.ld_unit_zero (S := S64x256x88) hz3, View.ld_unit_zero (S := S64x1) hz2, View.ld_unit_zero (S := S64x256) hz2]

/-- A point that opens a run: the body first stores the zero block, reads it back as the running block, and leaves the same
    payload over it. -/
theorem out_A (c : Dev nD) (i : grid1.Coords) (a2 : Memref sig .tc .vmem S64x256x88 .f32) (h2 : a2.IsWhole)
    (a3 : Memref sig .tc .vmem S64x256x88 .f32) (h3 : a3.IsWhole) (a4 : Memref sig .tc .vmem S64x1 .f32) (h4 : a4.IsWhole)
    (a5 : Memref sig .tc .vmem S64x256 .f32) (h5 : a5.IsWhole) (a6 : Memref sig .tc .vmem S64x1 .f32) (h6 : a6.IsWhole)
    (hc : cond1_0 i) (x y : Vec F S64x256x88 .f32) (tp : Vec F S64x1 .f32) (w : Vec F S64x256 .f32) :
    out1_A_4 c i a2 h2 a3 h3 a4 h4 a5 h5 a6 h6 hc x y tp w = k1_pay2 x y tp w (k1_pay1 (F := F)) := by
  unfold out1_A_4
  rw [View.read_writes_eq_canon _ _ _ (cover1_A_4 c i a2 h2 a3 h3 a4 h4 a5 h5 a6 h6 hc x y tp w)]
  unfold kernelRun1_A
  dsimp only
  sl_unfold_words
  rw [View.canon_cons_unit_zero (S := S64x1) hz2, View.readCov_unit_zero (S := S64x1) _ hz2]
  simp only [View.readAt_eq_ld, h2.read_unread, h3.read_unread, h4.read_unread, h5.read_unread,
    View.ld_unit_zero (S := S64x256x88) hz3, View.ld_unit_zero (S := S64x1) hz2, View.ld_unit_zero (S := S64x256) hz2]

end Cases

section Payload

/-- A column [a] cast to [a, 1] reads, at (r, u), the operand at r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [a, 1] broadcast along a second axis to [a, b] reads, at (r, s), the operand at (r, 0). -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (s : Fin b) :
    broadcastTo ⟨2, ![a, b]⟩ v h (ix2 r s) = v (ix2 r (0 : Fin 1)) := by
  refine broadcastTo_apply v h (ix2 r s) (ix2 r (0 : Fin 1)) fun ax => ?_
  match ax with
  | ⟨0, _⟩ =>
    show r.val = if a = 1 then 0 else r.val
    split
    · have := r.isLt; omega
    · rfl
  | ⟨1, _⟩ => rfl

/-- The sum over the features of a [64, 256, 88] block, read at (r, s): the sum over the 88 features there. -/
theorem featureSum_apply (v : FVec Ideal S64x256x88 .f32) (hφ : FKind.Formats .f32)
    (hacc : (0x00000000#32 : BitVec 32) = 0x00000000#32) (r : Fin 64) (s : Fin 256) :
    multiReduction .add [2] S64x256 v 0x00000000#32 reduces_S64x256x88_S64x256 hφ hacc (ix2 r s)
      = ∑ d : Fin 88, v (ix3 r s d) := by
  refine (Ideal.multiReduction_add_single v _ reduces_S64x256x88_S64x256 hφ hacc (ix2 r s)).trans ?_
  show ∑ d : Fin 88, v (reduces_S64x256x88_S64x256.lift (ix2 r s) d) = _
  refine Finset.sum_congr rfl fun d _ => congrArg v (funext fun a => ?_)
  match a with
  | ⟨0, _⟩ => rfl
  | ⟨1, _⟩ => rfl
  | ⟨2, _⟩ => rfl

/-- The sum over the in-block timesteps of a [64, 256] block, read at r: the sum over the 256 timesteps there. -/
theorem stepSum_apply (v : FVec Ideal S64x256 .f32) (hφ : FKind.Formats .f32)
    (hacc : (0x00000000#32 : BitVec 32) = 0x00000000#32) (r : Fin 64) :
    multiReduction .add [1] S64 v 0x00000000#32 reduces_S64x256_S64 hφ hacc (ix1 r)
      = ∑ s : Fin 256, v (ix2 r s) := by
  refine (Ideal.multiReduction_add_single v _ reduces_S64x256_S64 hφ hacc (ix1 r)).trans ?_
  show ∑ s : Fin 256, v (reduces_S64x256_S64.lift (ix1 r) s) = _
  refine Finset.sum_congr rfl fun s _ => congrArg v (funext fun a => ?_)
  match a with
  | ⟨0, _⟩ => rfl
  | ⟨1, _⟩ => rfl

/-- One timestep's term of a row's contribution: the ratio of the true-positive count to itself plus that timestep's
    false positives and false negatives, times the weight. -/
def term (x y : Vec Ideal S64x256x88 .f32) (tp : Vec Ideal S64x1 .f32) (w : Vec Ideal S64x256 .f32) (r : Fin 64) (s : Fin 256) : EReal :=
  Ideal.div (tp (ix2 r 0))
      ((tp (ix2 r 0) + ∑ d : Fin 88, Cert.Spec.pred (x (ix3 r s d)) * (Cert.Spec.one - y (ix3 r s d)))
        + ∑ d : Fin 88, (Cert.Spec.one - Cert.Spec.pred (x (ix3 r s d))) * y (ix3 r s d))
    * w (ix2 r s)

/-- The body's payload read at row r: the running block there plus the sum of the 256 in-block timesteps' terms. -/
theorem pay2_apply (x y : Vec Ideal S64x256x88 .f32) (tp : Vec Ideal S64x1 .f32) (w : Vec Ideal S64x256 .f32)
    (xo : Vec Ideal S64x1 .f32) (r : Fin 64) (u : Fin 1) :
    (k1_pay2 (F := Ideal) x y tp w xo : S64x1.Idx → EReal) (ix2 r u) = xo (ix2 r u) + ∑ s : Fin 256, term x y tp w r s := by
  unfold k1_pay2
  dsimp only
  rw [addf_apply, shapeCast_self]
  congr 1
  refine (shapeCast_a_a1_apply _ _ r u).trans ?_
  refine (stepSum_apply _ _ _ r).trans ?_
  refine Finset.sum_congr rfl fun s _ => ?_
  rw [mulf_apply, divf_apply, addf_apply, addf_apply, shapeCast_self, shapeCast_self,
    broadcastTo_a1_ab_apply, featureSum_apply, featureSum_apply]
  rfl

end Payload

section Run

/-- The zero block reads zero everywhere. -/
theorem zero_apply (i : S64x1.Idx) : (k1_pay1 (F := Ideal) : S64x1.Idx → EReal) i = 0 :=
  (show _ = Ideal.ofBits .f32 0x00000000#32 from rfl).trans Ideal.ofBits_zero_f32

/-- What grid point n adds to row r of its output block: the sum of its 256 timesteps' terms over the blocks the point's
    windows read (nothing past the grid). -/
def addend (c : Dev nD) (n : ℕ) (r : Fin 64) : EReal :=
  if h : n < cfg1.N then
    ∑ s : Fin 256, term (iblk1 V c 0 ⟨n, h⟩) (iblk1 V c 1 ⟨n, h⟩) (iblk1 V c 2 ⟨n, h⟩) (iblk1 V c 3 ⟨n, h⟩) r s
  else 0

/-- The running block after point n, at row r: the sum of the addends of the points of n's run of eight, from the run's
    first point 8·(n / 8) up to n. By induction on the point: a run's first point starts from zero, a later one adds to
    what the point before left. -/
theorem outsAt_apply (c : Dev nD) : ∀ (n : ℕ) (h : n < cfg1.N) (r : Fin 64) (u : Fin 1),
    (outsAt1 V c n h : S64x1.Idx → EReal) (ix2 r u) = ∑ k ∈ Finset.range (n % 8 + 1), addend V c (8 * (n / 8) + k) r
  | 0, h, r, u => by
    rw [outsAt1_A V c ⟨0, h⟩ rfl, out_A, pay2_apply, zero_apply, zero_add]
    show _ = ∑ k ∈ Finset.range 1, addend V c (0 + k) r
    rw [Finset.sum_range_one, addend, dif_pos h]
  | n + 1, h, r, u => by
    by_cases hm : (n + 1) % 8 = 0
    · rw [outsAt1_A V c ⟨n + 1, h⟩ hm, out_A, pay2_apply, zero_apply, zero_add, hm, Finset.sum_range_one,
        show 8 * ((n + 1) / 8) + 0 = n + 1 by omega, addend, dif_pos h]
    · rw [outsAt1_B V c ⟨n + 1, h⟩ hm, out_B, pay2_apply]
      show (outsAt1 V c n _ : S64x1.Idx → EReal) (ix2 r u) + _ = _
      rw [outsAt_apply c n (Nat.lt_of_succ_lt h) r u, show (n + 1) % 8 = n % 8 + 1 by omega,
        show (n + 1) / 8 = n / 8 by omega, Finset.sum_range_succ _ (n % 8 + 1),
        show 8 * (n / 8) + (n % 8 + 1) = n + 1 by omega, addend, dif_pos h]

/-- Row 64·q + r of the whole arrays: row r of row block q. -/
abbrev row (q : Fin 2) (r : Fin 64) : Fin 128 := ⟨64 * q.val + r.val, by have := q.isLt; have := r.isLt; omega⟩

/-- The windows' block indices, decided over the grid: point t sits at row block t / 8 and timestep block t % 8; the
    true-positive column and the output move with the row block only. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = t.val % 8 ∧ win1_1.index t (2 : Fin 3) = 0
    ∧ win1_2.index t (0 : Fin 2) = t.val / 8 ∧ win1_2.index t (1 : Fin 2) = 0
    ∧ win1_3.index t (0 : Fin 2) = t.val / 8 ∧ win1_3.index t (1 : Fin 2) = t.val % 8
    ∧ win1_4.index t (0 : Fin 2) = t.val / 8 ∧ win1_4.index t (1 : Fin 2) = 0 :=
  (by decide +kernel : ∀ t : Fin grid1.N, _)

/-- The logits' block at point 8·q + k reads the logits at row 64·q + r, timestep 256·k + s. -/
theorem logits_blk (c : Dev nD) (t : Fin cfg1.N) (q : Fin 2) (k : Fin 8) (ht : t.val = 8 * q.val + k.val)
    (r : Fin 64) (s : Fin 256) (d : Fin 88) :
    (iblk1 V c 0 t : S64x256x88.Idx → EReal) (ix3 r s d)
      = (V c main_arg0 : S128x2048x88.Idx → EReal) (ix3 (row q r) (Cert.Spec.tcat k s) d) := by
  obtain ⟨e0, e1, e2, -⟩ := idx_facts t
  unfold iblk1
  rw [View.read_apply]
  show V c main_arg0 _ = V c main_arg0 _
  congr 1
  funext a; apply Fin.ext
  match a with
  | ⟨0, _⟩ => show win1_0.index t (0 : Fin 3) * 64 + 1 * r.val = 64 * q.val + r.val; rw [e0]; omega
  | ⟨1, _⟩ => show win1_0.index t (1 : Fin 3) * 256 + 1 * s.val = 256 * k.val + s.val; rw [e1]; omega
  | ⟨2, _⟩ => show win1_0.index t (2 : Fin 3) * 88 + 1 * d.val = d.val; rw [e2]; omega

/-- The targets' block likewise. -/
theorem targets_blk (c : Dev nD) (t : Fin cfg1.N) (q : Fin 2) (k : Fin 8) (ht : t.val = 8 * q.val + k.val)
    (r : Fin 64) (s : Fin 256) (d : Fin 88) :
    (iblk1 V c 1 t : S64x256x88.Idx → EReal) (ix3 r s d)
      = (V c main_arg1 : S128x2048x88.Idx → EReal) (ix3 (row q r) (Cert.Spec.tcat k s) d) := by
  obtain ⟨-, -, -, e0, e1, e2, -⟩ := idx_facts t
  unfold iblk1
  rw [View.read_apply]
  show V c main_arg1 _ = V c main_arg1 _
  congr 1
  funext a; apply Fin.ext
  match a with
  | ⟨0, _⟩ => show win1_1.index t (0 : Fin 3) * 64 + 1 * r.val = 64 * q.val + r.val; rw [e0]; omega
  | ⟨1, _⟩ => show win1_1.index t (1 : Fin 3) * 256 + 1 * s.val = 256 * k.val + s.val; rw [e1]; omega
  | ⟨2, _⟩ => show win1_1.index t (2 : Fin 3) * 88 + 1 * d.val = d.val; rw [e2]; omega

/-- The true-positive column's block at point 8·q + k reads the column at row 64·q + r. -/
theorem count_blk (c : Dev nD) (t : Fin cfg1.N) (q : Fin 2) (k : Fin 8) (ht : t.val = 8 * q.val + k.val) (r : Fin 64) :
    (iblk1 V c 2 t : S64x1.Idx → EReal) (ix2 r (0 : Fin 1))
      = (V c main_v0 : S128x1.Idx → EReal) (ix2 (row q r) (0 : Fin 1)) := by
  obtain ⟨-, -, -, -, -, -, e0, e1, -⟩ := idx_facts t
  unfold iblk1
  rw [View.read_apply]
  show V c main_v0 _ = V c main_v0 _
  congr 1
  funext a; apply Fin.ext
  match a with
  | ⟨0, _⟩ => show win1_2.index t (0 : Fin 2) * 64 + 1 * r.val = 64 * q.val + r.val; rw [e0]; omega
  | ⟨1, _⟩ => show win1_2.index t (1 : Fin 2) * 1 + 1 * 0 = 0; rw [e1]

/-- The weights' block at point 8·q + k reads the weights at row 64·q + r, timestep 256·k + s. -/
theorem weights_blk (c : Dev nD) (t : Fin cfg1.N) (q : Fin 2) (k : Fin 8) (ht : t.val = 8 * q.val + k.val)
    (r : Fin 64) (s : Fin 256) :
    (iblk1 V c 3 t : S64x256.Idx → EReal) (ix2 r s)
      = (V c main_v8 : S128x2048.Idx → EReal) (ix2 (row q r) (Cert.Spec.tcat k s)) := by
  obtain ⟨-, -, -, -, -, -, -, -, e0, e1, -⟩ := idx_facts t
  unfold iblk1
  rw [View.read_apply]
  show V c main_v8 _ = V c main_v8 _
  congr 1
  funext a; apply Fin.ext
  match a with
  | ⟨0, _⟩ => show win1_3.index t (0 : Fin 2) * 64 + 1 * r.val = 64 * q.val + r.val; rw [e0]; omega
  | ⟨1, _⟩ => show win1_3.index t (1 : Fin 2) * 256 + 1 * s.val = 256 * k.val + s.val; rw [e1]; omega

/-- The true-positive count of a sequence, as the region finds it in the column. -/
abbrev count (c : Dev nD) (n : Fin 128) : EReal := (V c main_v0 : S128x1.Idx → EReal) (ix2 n 0)

/-- A timestep's term over the blocks of point 8·q + k is the specification's summand of sequence 64·q + r at timestep
    256·k + s. -/
theorem term_blocks (c : Dev nD) (t : Fin cfg1.N) (q : Fin 2) (k : Fin 8) (ht : t.val = 8 * q.val + k.val)
    (r : Fin 64) (s : Fin 256) :
    term (iblk1 V c 0 t) (iblk1 V c 1 t) (iblk1 V c 2 t) (iblk1 V c 3 t) r s
      = Ideal.div (count V c (row q r))
          ((count V c (row q r) + Cert.Spec.fp (V c main_arg0) (V c main_arg1) (row q r) (Cert.Spec.tcat k s))
            + Cert.Spec.fn (V c main_arg0) (V c main_arg1) (row q r) (Cert.Spec.tcat k s))
        * (V c main_v8 : S128x2048.Idx → EReal) (ix2 (row q r) (Cert.Spec.tcat k s)) := by
  unfold term Cert.Spec.fp Cert.Spec.fn
  simp only [logits_blk V c t q k ht, targets_blk V c t q k ht, count_blk V c t q k ht, weights_blk V c t q k ht]

/-- After the last point of row block q's run, row r of the output block holds the whole weighted sum of ratios of
    sequence 64·q + r: the eight points' addends are the eight runs of 256 timesteps. -/
theorem run_total (c : Dev nD) (t : Fin cfg1.N) (h7 : t.val % 8 = 7) (q : Fin 2) (hq : t.val / 8 = q.val)
    (r : Fin 64) (u : Fin 1) :
    (outsAt1 V c t.val t.isLt : S64x1.Idx → EReal) (ix2 r u)
      = Cert.Spec.acc (V c main_arg0) (V c main_arg1) (count V c) (V c main_v8) (row q r) := by
  have hN : cfg1.N = 16 := N_1
  rw [outsAt_apply, h7, hq]
  show ∑ k ∈ Finset.range 8, addend V c (8 * q.val + k) r = _
  rw [Finset.sum_range]
  unfold Cert.Spec.acc
  refine Eq.trans ?_ (Cert.Spec.sum_runs _)
  refine Finset.sum_congr rfl fun k _ => ?_
  have hlt : 8 * q.val + k.val < cfg1.N := by have := q.isLt; have := k.isLt; omega
  rw [addend, dif_pos hlt]
  refine Finset.sum_congr rfl fun s _ => ?_
  exact term_blocks V c ⟨8 * q.val + k.val, hlt⟩ q k rfl r s

/-- The whole result array: entry (n, ·) is the weighted sum of ratios of sequence n. -/
def total (c : Dev nD) : S128x1.Idx → EReal := fun i =>
  Cert.Spec.acc (V c main_arg0) (V c main_arg1) (count V c) (V c main_v8) ⟨(i 0).val, idx2_lt0 i⟩

/-- What the last point of a run leaves at an index of its output block is the whole array's entry under it. -/
theorem flushed_point (c : Dev nD) (t : Fin cfg1.N) (h7 : t.val % 8 = 7) (q : Fin 2) (hq : t.val / 8 = q.val)
    (e0 : win1_4.index t (0 : Fin 2) = t.val / 8) (y : S64x1.Idx) :
    (outsAt1 V c t.val t.isLt : S64x1.Idx → EReal) y = total V c (((cfg1.win 4).blk t).view.emb y) := by
  obtain ⟨r, u, rfl⟩ : ∃ (r : Fin 64) (u : Fin 1), y = ix2 r u := ⟨y 0, y 1, eq_ix2 y⟩
  rw [run_total V c t h7 q hq r u]
  unfold total
  congr 1
  apply Fin.ext
  show 64 * q.val + r.val = win1_4.index t (0 : Fin 2) * 64 + 1 * r.val
  rw [e0, hq]; omega

/-- A point that writes the output block back writes the whole array's block there. -/
theorem flushed_eq (c : Dev nD) (t : Fin cfg1.N) (hf : (cfg1.win 4).flush t = true) :
    (dat1 V c).flushed 4 t = ((cfg1.win 4).blk t).view.read (Elt Ideal) (total V c) := by
  have hN : cfg1.N = 16 := N_1
  have h7 : t.val % 8 = 7 := (flush1_4 t).mp hf
  have hq : t.val / 8 < 2 := by have := t.isLt; omega
  obtain ⟨-, -, -, -, -, -, -, -, -, -, e0, -⟩ := idx_facts t
  show (cfg1.win 4).cut (grid1.coords t) ((dat1 V c).after 4 t) = _
  rw [after1_4]
  funext y
  exact flushed_point V c t h7 ⟨t.val / 8, hq⟩ rfl e0 y

/-- An index of the result array is under point t's output block iff each coordinate is in the block's range. -/
theorem mem_out_blk (t : Fin cfg1.N) (i : S128x1.Idx) :
    i ∈ ((cfg1.win 4).blk t).view.set
      ↔ ∀ a : Fin 2, win1_4.index t a * S64x1.size a ≤ (i a).val ∧ (i a).val < win1_4.index t a * S64x1.size a + S64x1.size a := by
  show i ∈ ((View.whole main_v9).slice (win1_4.rect t)).set ↔ _
  rw [View.set_slice_whole, Rect.mem_set_unit]
  exact Iff.rfl

/-- So the result array ends holding the weighted sums: row i is written back by the last point of its row block's run. -/
theorem final (c : Dev nD) : (dat1 V c).arrAt 4 cfg1.N = total V c :=
  (dat1 V c).arrAt_eq_of_cover 4 (total V c) (flushed_eq V c) fun i => by
    have h0 : (i 0 : ℕ) < 128 := (i 0).isLt
    have h1 : (i 1 : ℕ) < 1 := (i 1).isLt
    have hN : cfg1.N = 16 := N_1
    have hlt : 8 * ((i 0 : ℕ) / 64) + 7 < cfg1.N := by omega
    obtain ⟨-, -, -, -, -, -, -, -, -, -, e0, e1⟩ := idx_facts ⟨8 * ((i 0 : ℕ) / 64) + 7, hlt⟩
    refine ⟨⟨8 * ((i 0 : ℕ) / 64) + 7, hlt⟩, (flush1_4 _).mpr (by show (8 * ((i 0 : ℕ) / 64) + 7) % 8 = 7; omega), ?_⟩
    rw [mem_out_blk]
    intro a
    match a with
    | ⟨0, _⟩ =>
      show win1_4.index ⟨8 * ((i 0 : ℕ) / 64) + 7, hlt⟩ (0 : Fin 2) * 64 ≤ (i 0 : ℕ)
        ∧ (i 0 : ℕ) < win1_4.index ⟨8 * ((i 0 : ℕ) / 64) + 7, hlt⟩ (0 : Fin 2) * 64 + 64
      rw [e0]; show (8 * ((i 0 : ℕ) / 64) + 7) / 8 * 64 ≤ (i 0 : ℕ) ∧ (i 0 : ℕ) < (8 * ((i 0 : ℕ) / 64) + 7) / 8 * 64 + 64; omega
    | ⟨1, _⟩ =>
      show win1_4.index ⟨8 * ((i 0 : ℕ) / 64) + 7, hlt⟩ (1 : Fin 2) * 1 ≤ (i 1 : ℕ)
        ∧ (i 1 : ℕ) < win1_4.index ⟨8 * ((i 0 : ℕ) / 64) + 7, hlt⟩ (1 : Fin 2) * 1 + 1
      rw [e1]; omega

end Run

/-- Region 1's result array, entry (n, 0): the weighted sum of ratios of sequence n, from the arrays the region was
    entered with: logits, targets, the true-positive column and the weights. -/
theorem value (c : Dev nD) (n : Fin 128) :
    ((dat1 (F := Ideal) V c).arrAt 4 cfg1.N : S128x1.Idx → EReal) (ix2 n 0)
      = Cert.Spec.acc (V c main_arg0) (V c main_arg1) (fun k => (V c main_v0 : S128x1.Idx → EReal) (ix2 k 0)) (V c main_v8) n := by
  rw [final V c]
  rfl

end Cert.KernelIdeal.RatioSum
end
-- ==== Proof.RefSums.lean ====
import proofs.«177394_j77257871721096_1_alg».proof.Proof.Spec
import proofs.«177394_j77257871721096_1_alg».proof.Proof.Gen.ReferenceIdeal.Read
import Idealize.ShloMosaic.PureOps.Ideal.Laws

noncomputable section

open Idealize.ShloMosaic Idealize.ShloMosaic.TcCoe Idealize.SL.Sem Idealize.ShloMosaic.ValueIdx

namespace Cert.ReferenceIdeal.RefValue
open Cert.ReferenceIdeal Cert.ReferenceIdeal.Read

/-! ## The printed words -/

/-- The word 0x3F800000 denotes the real one. -/
theorem one_word : Ideal.ofBits .f32 0x3F800000#32 = 1 := by
  simp [Ideal.ofBits, Ideal.ieee, -EReal.coe_mul]; norm_num

/-- The word 0x3F000000 denotes one half. -/
theorem half_word : Ideal.ofBits .f32 0x3F000000#32 = ((1 / 2 : ℝ) : EReal) := by
  simp [Ideal.ofBits, Ideal.ieee, -EReal.coe_mul]; norm_num

/-! ## The threshold: the logistic function is above one half exactly on the positive extended reals -/

theorem half_lt_logistic_iff (x : EReal) : ((1 / 2 : ℝ) : EReal) < Ideal.logistic x ↔ 0 < x := by
  induction x using EReal.rec with
  | bot =>
    rw [Ideal.logistic_bot]
    constructor
    · intro h; exact absurd h (by rw [← EReal.coe_zero, EReal.coe_lt_coe_iff]; norm_num)
    · intro h; exact absurd h (not_lt.mpr bot_le)
  | top =>
    rw [Ideal.logistic_top]
    constructor
    · intro _; exact EReal.zero_lt_top
    · intro _; rw [← EReal.coe_one, EReal.coe_lt_coe_iff]; norm_num
  | coe r =>
    rw [Ideal.logistic_coe, EReal.coe_lt_coe_iff, EReal.coe_pos]
    have hpos : (0 : ℝ) < 1 + Real.exp (-r) := by positivity
    rw [lt_inv_comm₀ (by norm_num) hpos]
    constructor
    · intro h
      have h1 : Real.exp (-r) < 1 := by norm_num at h; linarith
      have := Real.exp_lt_one_iff.mp h1; linarith
    · intro h
      have h1 : Real.exp (-r) < 1 := Real.exp_lt_one_iff.mpr (by linarith)
      norm_num; linarith

/-- The reference's prediction of one logit, 1 / (1 + e^(-x)) compared against one half and read as a number, is the
    comparison of the logit itself against zero read as a number: both are one where x is positive and zero elsewhere. -/
theorem thresh (x : EReal) :
    FloatOps.uitofp (F := Ideal) .f32 (FloatOps.cmpf (F := Ideal) (φ := .f32) .ogt
        (FloatOps.hostDivf (F := Ideal) (φ := .f32) (FloatOps.ofBits .f32 0x3F800000#32)
          (FloatOps.addf (F := Ideal) (φ := .f32) (FloatOps.ofBits .f32 0x3F800000#32)
            (FloatOps.hostUnary (F := Ideal) (φ := .f32) .exp (FloatOps.hostNegf (F := Ideal) (φ := .f32) x))))
        (FloatOps.ofBits .f32 0x3F000000#32))
      = Cert.Spec.pred x := by
  show (((BitVec.ofBool (decide (Ideal.ofBits .f32 0x3F000000#32
        < Ideal.div (Ideal.ofBits .f32 0x3F800000#32) (Ideal.ofBits .f32 0x3F800000#32 + Ideal.exp (-x))))).toNat : ℝ) : EReal)
     = ((((BitVec.ofBool (decide (Ideal.ofBits .f32 0x00000000#32 < x))).setWidth 32).toInt : ℝ) : EReal)
  rw [one_word, half_word, Ideal.ofBits_zero_f32]
  have hl : Ideal.div 1 (1 + Ideal.exp (-x)) = Ideal.logistic x := rfl
  have key : decide (((1 / 2 : ℝ) : EReal) < Ideal.logistic x) = decide (0 < x) :=
    decide_eq_decide.mpr (half_lt_logistic_iff x)
  rw [hl, key]
  by_cases h : 0 < x <;> simp [h]

/-- The reference's thresholded prediction (its buffer %8) at an index is the specification's. -/
theorem pred_apply (x0 : (⟨S128x2048x88, .f32⟩ : BufTy).Contents (Elt Ideal)) (i : S128x2048x88.Idx) :
    val_main_v8 (F := Ideal) x0 i = Cert.Spec.pred (x0 i) := by
  rw [val_main_v8_apply, val_main_v7_apply, val_main_v5_apply, val_main_v6_apply, val_main_v4_apply, val_main_v3_apply,
    val_main_v2_apply, val_main_v1_apply, val_main_v0_apply, val_main_cst_apply, val_main_cst_0_apply, val_main_cst_1_apply]
  exact thresh (x0 i)

/-! ## The index functions of the layout operations and the sums, by coordinates -/

theorem idx35 (n : Fin 128) (t : Fin 2048) : idx_main_v35 (ix1 n) t = ix2 n t :=
  funext fun a => Fin.ext (by match a with | ⟨0, _⟩ => rfl | ⟨1, _⟩ => rfl)
theorem idx14 (n : Fin 128) (t : Fin 2048) (d : Fin 88) : idx_main_v14 (ix2 n t) d = ix3 n t d :=
  funext fun a => Fin.ext (by match a with | ⟨0, _⟩ => rfl | ⟨1, _⟩ => rfl | ⟨2, _⟩ => rfl)
theorem idx18 (n : Fin 128) (t : Fin 2048) (d : Fin 88) : idx_main_v18 (ix2 n t) d = ix3 n t d :=
  funext fun a => Fin.ext (by match a with | ⟨0, _⟩ => rfl | ⟨1, _⟩ => rfl | ⟨2, _⟩ => rfl)
theorem idx32 (n : Fin 128) (t : Fin 2048) : idx_main_v27 (idx_main_v32 (ix2 n t)) = ix1 n :=
  funext fun a => Fin.ext (by match a with | ⟨0, _⟩ => rfl)
theorem idx29 (n : Fin 128) (t : Fin 2048) : idx_main_v28 (idx_main_v29 (ix2 n t)) = ix1 n :=
  funext fun a => Fin.ext (by match a with | ⟨0, _⟩ => rfl)

/-! ## The sum over the timestep and feature axes together

The indices of a [128, 2048, 88] array that keep sequence n once the two reduced axes are dropped are exactly the
(n, t, d): summing over them is the double sum over t and d. -/

theorem sum_filter_drop_td {M : Type*} [AddCommMonoid M] (h : S128x2048x88.ReducesTo [1, 2] S128)
    (f : S128x2048x88.Idx → M) (n : Fin 128) :
    ∑ i ∈ Finset.univ.filter (fun i => h.drop i = ix1 n), f i = ∑ t : Fin 2048, ∑ d : Fin 88, f (ix3 n t d) := by
  rw [← Fintype.sum_prod_type' (fun (t : Fin 2048) (d : Fin 88) => f (ix3 n t d))]
  have hd : ∀ i : S128x2048x88.Idx, (h.drop i (0 : Fin 1)).val = (i (0 : Fin 3)).val := fun i => rfl
  have hinv : ∀ i : S128x2048x88.Idx, h.drop i = ix1 n → ix3 n (i (1 : Fin 3)) (i (2 : Fin 3)) = i := fun i hi => by
    have e : i (0 : Fin 3) = n := Fin.ext (by rw [← hd i, hi])
    rw [← e]; exact (eq_ix3 i).symm
  refine Finset.sum_nbij' (fun i => (((i (1 : Fin 3) : Fin 2048), (i (2 : Fin 3) : Fin 88)) : Fin 2048 × Fin 88))
    (fun p => ix3 n p.1 p.2) ?_ ?_ ?_ ?_ ?_
  · intro i _; simp only [Finset.mem_univ]
  · intro p _
    refine Finset.mem_filter.2 ⟨Finset.mem_univ _, ?_⟩
    funext b
    match b with
    | ⟨0, _⟩ => exact Fin.ext (hd _)
  · intro i hi; exact hinv i (Finset.mem_filter.1 hi).2
  · intro p _; rfl
  · intro i hi; exact congrArg f (hinv i (Finset.mem_filter.1 hi).2).symm

/-- The reference's true positives (its buffer %10), entry n. -/
theorem tp_apply (x0 x1 : (⟨S128x2048x88, .f32⟩ : BufTy).Contents (Elt Ideal)) (n : Fin 128) :
    val_main_v10 (F := Ideal) x0 x1 (ix1 n) = Cert.Spec.tp x0 x1 n := by
  unfold val_main_v10
  simp only [Host.reduceAdd, Ideal.hostReduceAdd_def]
  unfold Ideal.hostReduceAdd
  rw [sum_filter_drop_td, val_main_cst_2_apply, Ideal.ofBits_def, Ideal.ofBits_zero_f32, zero_add]
  unfold Cert.Spec.tp
  refine Finset.sum_congr rfl fun t _ => Finset.sum_congr rfl fun d _ => ?_
  rw [val_main_v9_apply, pred_apply]
  rfl

/-- The reference's false positives (its buffer %14), entry (n, t). -/
theorem fp_apply (x0 x1 : (⟨S128x2048x88, .f32⟩ : BufTy).Contents (Elt Ideal)) (n : Fin 128) (t : Fin 2048) :
    val_main_v14 (F := Ideal) x0 x1 (ix2 n t) = Cert.Spec.fp x0 x1 n t := by
  rw [val_main_v14_apply, val_main_cst_4_apply, Ideal.ofBits_def, Ideal.ofBits_zero_f32, zero_add]
  unfold Cert.Spec.fp
  refine Finset.sum_congr rfl fun d _ => ?_
  rw [idx14, val_main_v13_apply, val_main_v12_apply, val_main_v11_apply, val_main_cst_3_apply, pred_apply]
  rfl

/-- The reference's false negatives (its buffer %18), entry (n, t). -/
theorem fn_apply (x0 x1 : (⟨S128x2048x88, .f32⟩ : BufTy).Contents (Elt Ideal)) (n : Fin 128) (t : Fin 2048) :
    val_main_v18 (F := Ideal) x0 x1 (ix2 n t) = Cert.Spec.fn x0 x1 n t := by
  rw [val_main_v18_apply, val_main_cst_6_apply, Ideal.ofBits_def, Ideal.ofBits_zero_f32, zero_add]
  unfold Cert.Spec.fn
  refine Finset.sum_congr rfl fun d _ => ?_
  rw [idx18, val_main_v17_apply, val_main_v16_apply, val_main_v15_apply, val_main_cst_5_apply, pred_apply]
  rfl

/-- The reference's per-sequence sum (its buffer %35), entry n: the weighted sum of ratios with the reference's own
    true positives and its own weights (its buffer %26). -/
theorem sums (x0 x1 : (⟨S128x2048x88, .f32⟩ : BufTy).Contents (Elt Ideal)) (x2 : (⟨S128x2048, .i32⟩ : BufTy).Contents (Elt Ideal)) (n : Fin 128) :
    val_main_v35 (F := Ideal) x0 x1 x2 (ix1 n)
      = Cert.Spec.acc x0 x1 (Cert.Spec.tp x0 x1) (val_main_v26 (F := Ideal) x2) n := by
  rw [val_main_v35_apply, val_main_cst_7_apply, Ideal.ofBits_def, Ideal.ofBits_zero_f32, zero_add]
  unfold Cert.Spec.acc
  refine Finset.sum_congr rfl fun t _ => ?_
  rw [idx35, val_main_v34_apply, val_main_v33_apply, val_main_v32_apply, val_main_v27_apply, idx32, val_main_v31_apply,
    val_main_v30_apply, val_main_v29_apply, val_main_v28_apply, idx29, tp_apply, fp_apply, fn_apply]
  rfl

end Cert.ReferenceIdeal.RefValue
end
-- ==== Proof.Bridge.lean ====
/-
  The kernel program's result is the reference's result, as extended reals.

  The kernel program computes, region by region: the true-positive column `tp`; then per sequence the weighted sum
  of ratios `acc n = ∑ₜ tp n / ((tp n + fp n t) + fn n t) · w n t`, with the weights `w` the host built from the mask;
  then the host divides `acc n` by the sequence's count of valid timesteps and sums over the sequences. The reference
  computes the same per-sequence sums in one host program and ends with the same division and sum. So it is enough
  that the two vectors of per-sequence sums agree entry by entry; the last two operations are the same on both sides.
-/
import proofs.«177394_j77257871721096_1_alg».proof.Proof.KRun
import proofs.«177394_j77257871721096_1_alg».proof.Proof.HostSide
import proofs.«177394_j77257871721096_1_alg».proof.Proof.TruePos
import proofs.«177394_j77257871721096_1_alg».proof.Proof.RatioSum
import proofs.«177394_j77257871721096_1_alg».proof.Proof.RefSums
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Bridge
open Cert.KernelIdeal Cert.KernelIdeal.Gen

variable (m : (ℓ : Loc nD τ sig) → Buf (Elt Ideal) ℓ) (ρ : Dev nD → PrngReg)

/-- A column [128, 1] read as a vector [128]: entry `n` is the column's entry (n, 0). -/
theorem column_as_vector {α : Type} (x : S128x1.Idx → α) (h : S128x1.ShapeCasts S128) (n : Fin 128) :
    shapeCast S128 x h (ix1 n) = x (ix2 n 0) :=
  shapeCast_apply x h _ _ (by
    rw [Shape.rowMajor_val_two, Shape.rowMajor_val_one]
    show n.val * 1 + 0 = n.val
    omega)

/-- The weights the kernel program's host builds are the reference's weights: the same operations of the mask. -/
theorem weights_same (x2 : (⟨S128x2048, .i32⟩ : BufTy).Contents (Elt Ideal)) :
    HostSide.weights (F := Ideal) x2 = Cert.ReferenceIdeal.Read.val_main_v26 (F := Ideal) x2 := rfl

/-- The counts of valid timesteps are the reference's counts. -/
theorem steps_same (x2 : (⟨S128x2048, .i32⟩ : BufTy).Contents (Elt Ideal)) :
    HostSide.steps (F := Ideal) x2 = Cert.ReferenceIdeal.Read.val_main_v19 (F := Ideal) x2 := rfl

/-- The per-sequence sums: the second region's column, read as a vector, is the reference's vector of sums. -/
theorem sums_same (c : Dev nD) :
    shapeCast S128 ((dat1 (V2 m ρ) c).arrAt 4 cfg1.N) shapeCasts_S128x1_S128
      = Cert.ReferenceIdeal.Read.val_main_v35 (F := Ideal) (m ((c : Thread nD τ).loc main_arg0)) (m ((c : Thread nD τ).loc main_arg1))
          (m ((c : Thread nD τ).loc main_arg2)) := by
  funext i
  obtain ⟨n, rfl⟩ : ∃ n : Fin 128, i = ix1 n := ⟨i 0, eq_ix1 i⟩
  rw [column_as_vector, RatioSum.value (V2 m ρ) c n, Cert.ReferenceIdeal.RefValue.sums,
    HostSide.logits_eq, HostSide.targets_eq, HostSide.weights_eq, HostSide.column_eq, weights_same]
  refine congrArg (fun τ => Cert.Spec.acc _ _ τ _ n) (funext fun k => ?_)
  exact TruePos.value (V0 m ρ) c k

/-- The kernel program's result buffer holds the reference's result term of the launch arguments. -/
theorem result_same (c : Dev nD) :
    W4 m ρ c (Proc.devRef .tc main_v13)
      = Cert.ReferenceIdeal.Read.val_main_v38 (F := Ideal) (m ((c : Thread nD τ).loc main_arg0)) (m ((c : Thread nD τ).loc main_arg1))
          (m ((c : Thread nD τ).loc main_arg2)) := by
  rw [HostSide.result_eq, sums_same, steps_same]
  rfl

end Cert.KernelIdeal.Bridge
end
-- ==== Proof.lean ====
/-
  The certificate's proof. The kernel program evaluates a precision-style score in two tiled passes — first each
  sequence's true positives `tp n = ∑ₜ ∑_d p · y` with `p = [x > 0]`, then each sequence's weighted sum of ratios
  `∑ₜ tp n / ((tp n + fp n t) + fn n t) · w n t` — and finishes on the host: divide by the sequence's count of valid
  timesteps, sum over the sequences. The reference thresholds the logistic function at one half instead,
  `p = [1 / (1 + e^{-x}) > 1/2]`, which is the same prediction for every extended real `x`, and evaluates the same sums
  untiled. Over the extended reals a tiled sum is the untiled one (addition is commutative and associative there), so
  both programs end with the same number. No rewrite was applied when the kernel was idealized, so that conjunct is
  trivial; the three frames are the programs' runs with the results dropped.
-/
import proofs.«177394_j77257871721096_1_alg».proof.Defs
import proofs.«177394_j77257871721096_1_alg».proof.Proof.Gen.Kernel
import proofs.«177394_j77257871721096_1_alg».proof.Proof.Gen.Kernel.Skeleton
import proofs.«177394_j77257871721096_1_alg».proof.Proof.Gen.Kernel.Launch
import proofs.«177394_j77257871721096_1_alg».proof.Proof.Gen.Kernel.Points
import proofs.«177394_j77257871721096_1_alg».proof.Proof.Gen.Kernel.Frame
import proofs.«177394_j77257871721096_1_alg».proof.Proof.Gen.KernelIdeal
import proofs.«177394_j77257871721096_1_alg».proof.Proof.Gen.KernelIdeal.Skeleton
import proofs.«177394_j77257871721096_1_alg».proof.Proof.Gen.KernelIdeal.Launch
import proofs.«177394_j77257871721096_1_alg».proof.Proof.Gen.KernelIdeal.Points
import proofs.«177394_j77257871721096_1_alg».proof.Proof.Gen.KernelIdeal.Frame
import proofs.«177394_j77257871721096_1_alg».proof.Proof.Gen.ReferenceIdeal
import proofs.«177394_j77257871721096_1_alg».proof.Proof.Gen.Pre_finite_inputs
import proofs.«177394_j77257871721096_1_alg».proof.Proof.Gen.ReferenceIdeal.Run
import proofs.«177394_j77257871721096_1_alg».proof.Proof.Gen.ReferenceIdeal.Read
import proofs.«177394_j77257871721096_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's result term of the (agreeing) arguments. -/
theorem algebraic : Cert.algebraic_KernelIdeal_ReferenceIdeal := by
  intro m ρ m' ρ' _ hagree
  refine ⟨fun c => Cert.ReferenceIdeal.Read.val_main_v38 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Bridge.result_same m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
